-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S1 : Shape := ⟨1, ![1]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S131072x256 .f32) (main_arg1 : FVec F S256x256 .f32) (main_arg2 : FVec F S1 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S131072x256 : Shape := ⟨2, ![131072, 256]⟩
abbrev S256x256 : Shape := ⟨2, ![256, 256]⟩
abbrev S1 : Shape := ⟨1, ![1]⟩
abbrev S8192x256 : Shape := ⟨2, ![8192, 256]⟩

abbrev nBuf : Space → Nat
  | .hbm => 7
  | .vmem => 5
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S1, .f32⟩
  | .hbm, ⟨3, _⟩ => ⟨S1, .f32⟩
  | .hbm, ⟨4, _⟩ => ⟨S256x256, .bf16⟩
  | .hbm, ⟨5, _⟩ => ⟨S256x256, .bf16⟩
  | .hbm, ⟨6, _⟩ => ⟨S131072x256, .f32⟩
  | .local _ .vmem, ⟨0, _⟩ => ⟨S8192x256, .f32⟩
  | .local _ .vmem, ⟨1, _⟩ => ⟨S8192x256, .f32⟩
  | .local _ .vmem, ⟨2, _⟩ => ⟨S256x256, .bf16⟩
  | .local _ .vmem, ⟨3, _⟩ => ⟨S8192x256, .f32⟩
  | .local _ .vmem, ⟨4, _⟩ => ⟨S8192x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  transposes_S256x256_S256x256_1_0 : S256x256.Transposes [1, 0] S256x256
  inb_S8192x256_S8192x256_0_0 : ∀ a, (![0, 0] : Fin 2 → Nat) a + S8192x256.size a ≤ S8192x256.size a
  h_S8192x256 : 0 < S8192x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  dot_S8192x256_S256x256_S8192x256_1_0_0_1_n_n_wf : DotDims.WF S8192x256 S256x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x256.size a ≤ S131072x256.size a
  hwx0_2 : ∀ i : grid0.Coords, EltTy.bits .f32 = 32 ∨ (Rect.block (s := S131072x256) S8192x256.size (cc0_transform_2 i) (hinb0_2 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S1 : Shape := ⟨1, ![1]⟩

abbrev nBuf : Space → Nat
  | .hbm => 5
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S1, .f32⟩
  | .hbm, ⟨3, _⟩ => ⟨S1, .f32⟩
  | .hbm, ⟨4, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.DenseSpec.lean ====
/-
  The dense layer as ONE function of its two argument arrays.  The input `x` has 131072 rows of 256 features, the weight
  `w` has one row of 256 features per output column, and entry `(r, n)` of the result is the inner product of row `r` of
  `x` with row `n` of `w`:

      out[r, n] = Σ_{k < 256} x[r, k] · w[n, k]

  — the matrix product of `x` with the transpose of `w`, read on the extended reals.  Both programs compute this sum with
  the 256 products taken in the same order of `k`, so nothing beyond the definition is needed to join them: no law of
  real arithmetic, hence no use of finiteness of the inputs.
-/
import Idealize.ShloMosaic.PureOps.Ideal
import Idealize.ShloMosaic.Lib.ValueIdx

noncomputable section

open scoped BigOperators

namespace Cert.Dense

open Idealize.ShloMosaic Idealize.ShloMosaic.ValueIdx

/-- `out[r, n] = Σ_k x[r, k] · w[n, k]`: row `r` of the input against row `n` of the weight. -/
def dense (x : (⟨2, ![131072, 256]⟩ : Shape).Idx → EReal) (w : (⟨2, ![256, 256]⟩ : Shape).Idx → EReal) :
    (⟨2, ![131072, 256]⟩ : Shape).Idx → EReal :=
  fun i => ∑ k : Fin 256, x (ix2 (i 0) k) * w (ix2 (i 1) k)

/-- The definition read at an index given by its two coordinates. -/
theorem dense_apply (x : (⟨2, ![131072, 256]⟩ : Shape).Idx → EReal) (w : (⟨2, ![256, 256]⟩ : Shape).Idx → EReal)
    (i : (⟨2, ![131072, 256]⟩ : Shape).Idx) :
    dense x w i = ∑ k : Fin 256, x (ix2 (i 0) k) * w (ix2 (i 1) k) := rfl

end Cert.Dense

end
-- ==== Proof.RefDense.lean ====
/-
  The reference computes the dense layer.  Its one contraction takes axis 1 of the input against axis 1 of the weight, so
  entry `(r, n)` of its result is `Σ_k x[r, k] · w[n, k]`: the specification's sum, term by term.
-/
import proofs.«416868_j36283883717254_3_alg».proof.Proof.Gen.ReferenceIdeal.Read
import proofs.«416868_j36283883717254_3_alg».proof.Proof.DenseSpec

noncomputable section

open scoped BigOperators

namespace Cert.ReferenceIdeal.RefDense

open Cert.ReferenceIdeal Cert.ReferenceIdeal.Read Idealize.ShloMosaic Idealize.ShloMosaic.ValueIdx

/-- The left operand's index at output `i` and contraction position `k` is `(i 0, k)`. -/
theorem lidx_eq (i : S131072x256.Idx) (k : Fin 256) : lidx_main_v1 i k = ix2 (i 0) k :=
  funext fun a => by match a with | ⟨0, _⟩ => rfl | ⟨1, _⟩ => rfl

/-- The right operand's index there is `(i 1, k)`: the weight is read along its rows. -/
theorem ridx_eq (i : S131072x256.Idx) (k : Fin 256) : ridx_main_v1 i k = ix2 (i 1) k :=
  funext fun a => by match a with | ⟨0, _⟩ => rfl | ⟨1, _⟩ => rfl

/-- The reference's result is the dense layer of its two arguments. -/
theorem ref_eq_dense (x : (⟨S131072x256, .f32⟩ : BufTy).Contents (Elt Ideal)) (w : (⟨S256x256, .f32⟩ : BufTy).Contents (Elt Ideal)) :
    val_main_v1 (F := Ideal) x w = Cert.Dense.dense x w := by
  funext i
  rw [val_main_v1_apply, Cert.Dense.dense_apply]
  refine Finset.sum_congr rfl fun k _ => ?_
  rw [lidx_eq, ridx_eq]
  rfl

end Cert.ReferenceIdeal.RefDense

end
-- ==== Proof.KernelDense.lean ====
/-
  The kernel computes the dense layer.

  The grid has 16 points.  Point `t` stages rows `8192·t … 8192·t + 8191` of the input `x` (all 256 features), the whole
  256×256 matrix `wt` that the host prepared before the launch, and writes back the same rows of the result.  The host's
  `wt` is the weight with its format changed (the identity on the extended reals) and then transposed: `wt[k, n] = w[n, k]`.
  The body multiplies the input block by `wt` into a zero accumulator, so row `p` of the block it stores is
  `Σ_k x[8192·t + p, k] · wt[k, n] = Σ_k x[8192·t + p, k] · w[n, k]` — rows `8192·t …` of the dense layer.  The 16 row
  blocks tile the result array, so after the run the array is the dense layer of the two arguments.
-/
import proofs.«416868_j36283883717254_3_alg».proof.Proof.Gen.KernelIdeal.Value
import proofs.«416868_j36283883717254_3_alg».proof.Proof.DenseSpec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The body's matrix product at an entry -/

/-- The left operand's row coordinate is the output's row. -/
theorem lhs_dot_0 (i : S8192x256.Idx) (q : dot_S8192x256_S256x256_S8192x256_1_0_0_1_n_n.contr.Idx) :
    (dot_S8192x256_S256x256_S8192x256_1_0_0_1_n_n.lhsIdx i q 0).val = (i 0).val := by
  unfold DotDims.lhsIdx
  rw [dif_neg (show ¬(0 : Fin S8192x256.rank) ∈ dot_S8192x256_S256x256_S8192x256_1_0_0_1_n_n.lhsBatch by decide), dif_pos (show (0 : Fin S8192x256.rank) ∈ dot_S8192x256_S256x256_S8192x256_1_0_0_1_n_n.lhsNonContracting by decide)]
  rfl
/-- The left operand's column coordinate is the contraction position. -/
theorem lhs_dot_1 (i : S8192x256.Idx) (q : dot_S8192x256_S256x256_S8192x256_1_0_0_1_n_n.contr.Idx) :
    (dot_S8192x256_S256x256_S8192x256_1_0_0_1_n_n.lhsIdx i q 1).val = (q ⟨0, by decide⟩).val :=
  dot_S8192x256_S256x256_S8192x256_1_0_0_1_n_n.lhsIdx_val_of_single rfl i q
/-- The right operand's row coordinate is the contraction position. -/
theorem rhs_dot_0 (i : S8192x256.Idx) (q : dot_S8192x256_S256x256_S8192x256_1_0_0_1_n_n.contr.Idx) :
    (dot_S8192x256_S256x256_S8192x256_1_0_0_1_n_n.rhsIdx i q 0).val = (q ⟨0, by decide⟩).val :=
  dot_S8192x256_S256x256_S8192x256_1_0_0_1_n_n.rhsIdx_val_of_single rfl i q
/-- The right operand's column coordinate is the output's column. -/
theorem rhs_dot_1 (i : S8192x256.Idx) (q : dot_S8192x256_S256x256_S8192x256_1_0_0_1_n_n.contr.Idx) :
    (dot_S8192x256_S256x256_S8192x256_1_0_0_1_n_n.rhsIdx i q 1).val = (i 1).val := by
  unfold DotDims.rhsIdx
  rw [dif_neg (show ¬(1 : Fin S256x256.rank) ∈ dot_S8192x256_S256x256_S8192x256_1_0_0_1_n_n.rhsBatch by decide), dif_pos (show (1 : Fin S256x256.rank) ∈ dot_S8192x256_S256x256_S8192x256_1_0_0_1_n_n.rhsNonContracting by decide)]
  rfl

/-- Entry `(p, n)` of what the body stores is `Σ_k x0[p, k] · x1[k, n]` of its two loaded blocks: the change of format of
    the left block and the shape cast of the right one are the identity, and the accumulator is zero. -/
theorem pay_apply (x0 : Vec Ideal S8192x256 .f32) (x1 : Vec Ideal S256x256 .bf16) (j : S8192x256.Idx) :
    k0_pay1 (F := Ideal) x0 x1 j = ∑ k : Fin 256, x0 (ix2 (j 0) k) * x1 (ix2 k (j 1)) := by
  unfold k0_pay1
  refine (Ideal.matmul_constant_zero_apply dot_S8192x256_S256x256_S8192x256_1_0_0_1_n_n none (truncf .bf16 x0 _) (shapeCast S256x256 x1 _) j).trans ?_
  rw [← Equiv.sum_comp (contrEquiv1 dot_S8192x256_S256x256_S8192x256_1_0_0_1_n_n 256 rfl rfl).symm]
  refine Finset.sum_congr rfl fun k _ => ?_
  have hk := contrEquiv1_symm_val dot_S8192x256_S256x256_S8192x256_1_0_0_1_n_n 256 rfl rfl k
  have el : dot_S8192x256_S256x256_S8192x256_1_0_0_1_n_n.lhsIdx j ((contrEquiv1 dot_S8192x256_S256x256_S8192x256_1_0_0_1_n_n 256 rfl rfl).symm k) = ix2 (j 0) k := funext fun a => Fin.ext (by
    match a with
    | ⟨0, _⟩ => exact lhs_dot_0 _ _
    | ⟨1, _⟩ => exact (lhs_dot_1 _ _).trans hk)
  have er : dot_S8192x256_S256x256_S8192x256_1_0_0_1_n_n.rhsIdx j ((contrEquiv1 dot_S8192x256_S256x256_S8192x256_1_0_0_1_n_n 256 rfl rfl).symm k) = ix2 k (j 1) := funext fun a => Fin.ext (by
    match a with
    | ⟨0, _⟩ => exact (rhs_dot_0 _ _).trans hk
    | ⟨1, _⟩ => exact rhs_dot_1 _ _)
  rw [el, er, shapeCast_self]
  rfl

/-- So, whenever the left block's row `j 0` is row `i 0` of an array `X` and the right block's column `j 1` is row `i 1`
    of an array `W` read along the contraction, the stored entry `j` is entry `i` of the dense layer of `X` and `W`. -/
theorem pay_dense (x0 : Vec Ideal S8192x256 .f32) (x1 : Vec Ideal S256x256 .bf16)
    (X : S131072x256.Idx → EReal) (W : S256x256.Idx → EReal) (j : S8192x256.Idx) (i : S131072x256.Idx)
    (h0 : ∀ k : Fin 256, x0 (ix2 (j 0) k) = X (ix2 (i 0) k))
    (h1 : ∀ k : Fin 256, x1 (ix2 k (j 1)) = W (ix2 (i 1) k)) :
    k0_pay1 (F := Ideal) x0 x1 j = Cert.Dense.dense X W i := by
  rw [pay_apply, Cert.Dense.dense_apply]
  exact Finset.sum_congr rfl fun k _ => by rw [h0 k, h1 k]

/-! ## The blocks the body is given -/

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 16 grid points: the input and the result move down one row block per point, the
    prepared weight stays put. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What the host leaves in the second operand's array before the launch: the weight, its format changed, transposed. -/
theorem wt_eq (c : Dev nD) :
    (V m c main_call0_v2 : S256x256.Idx → EReal)
      = transpose S256x256 [1, 0] (truncf (F := Ideal) .bf16 (m ((c : Thread nD τ).loc main_arg1) : FVec Ideal S256x256 .f32) bitsLt_bf16_f32) transposes_S256x256_S256x256_1_0 := by
  dsimp only [V, hostOps0]; after_results; rfl

/-- Row `p` of the input block at point `t` is row `8192·t + p` of the input. -/
theorem xblk_apply (c : Dev nD) (t : Fin cfg0.N) (p : Fin 8192) (k : Fin 256) (i : S131072x256.Idx)
    (hi0 : (i 0).val = t.val * 8192 + p.val) (hi1 : (i 1).val = k.val) :
    (iblk m c 0 t : Vec Ideal S8192x256 .f32) (ix2 p k) = (m ((c : Thread nD τ).loc main_arg0) : S131072x256.Idx → EReal) i := by
  obtain ⟨e0, e1, -⟩ := idx_facts t
  show V m c main_arg0 (((cfg0.win 0).blk t).view.emb (ix2 p k)) = _
  rw [V_main_arg0 m c]
  congr 1
  funext a
  apply Fin.ext
  match a with
  | ⟨0, _⟩ => show win0_0.index t (0 : Fin 2) * 8192 + 1 * p.val = (i 0).val; omega
  | ⟨1, _⟩ => show win0_0.index t (1 : Fin 2) * 256 + 1 * k.val = (i 1).val; omega

/-- Entry `(k, q)` of the weight block at any point is entry `(q, k)` of the weight. -/
theorem wblk_apply (c : Dev nD) (t : Fin cfg0.N) (k q n : Fin 256) (hn : n.val = q.val) :
    (iblk m c 1 t : Vec Ideal S256x256 .bf16) (ix2 k q) = (m ((c : Thread nD τ).loc main_arg1) : S256x256.Idx → EReal) (ix2 n k) := by
  obtain rfl : n = q := Fin.ext hn
  obtain ⟨-, -, e2, e3, -⟩ := idx_facts t
  show V m c main_call0_v2 (((cfg0.win 1).blk t).view.emb (ix2 k n)) = _
  have he : ((cfg0.win 1).blk t).view.emb (ix2 k n) = (ix2 k n : S256x256.Idx) := by
    funext a
    apply Fin.ext
    match a with
    | ⟨0, _⟩ => show win0_1.index t (0 : Fin 2) * 256 + 1 * k.val = k.val; omega
    | ⟨1, _⟩ => show win0_1.index t (1 : Fin 2) * 256 + 1 * n.val = n.val; omega
  rw [he, wt_eq m c]
  exact transpose_ix2_apply _ _ k n

/-! ## What each point writes back, and the array after the run -/

/-- Point `t` writes back block `t` of the dense layer of the two arguments. -/
theorem flushed_eq (c : Dev nD) (t : Fin cfg0.N) :
    (dats m 0 c).flushed 2 t = ((cfg0.win 2).blk t).view.read (Elt Ideal)
      (Cert.Dense.dense (m ((c : Thread nD τ).loc main_arg0)) (m ((c : Thread nD τ).loc main_arg1))) := by
  rw [Cert.KernelIdeal.Value.flushed2]
  unfold out0_2
  rw [View.canon_unit_zero hz]
  simp only [View.ld_unit_zero (S := S8192x256) hz, View.ld_unit_zero (S := S256x256) hz]
  obtain ⟨-, -, -, -, e4, e5⟩ := idx_facts t
  funext j
  show k0_pay1 (F := Ideal) (iblk m c 0 t) (iblk m c 1 t) j
    = Cert.Dense.dense (m ((c : Thread nD τ).loc main_arg0)) (m ((c : Thread nD τ).loc main_arg1)) (((cfg0.win 2).blk t).view.emb j)
  refine pay_dense (iblk m c 0 t) (iblk m c 1 t) (m ((c : Thread nD τ).loc main_arg0)) (m ((c : Thread nD τ).loc main_arg1)) j
    (((cfg0.win 2).blk t).view.emb j) (fun k => ?_) (fun k => ?_)
  · refine xblk_apply m c t (j 0) k _ ?_ rfl
    show win0_2.index t (0 : Fin 2) * 8192 + 1 * (j 0).val = t.val * 8192 + (j 0).val
    omega
  · refine wblk_apply m c t k (j 1) _ ?_
    show win0_2.index t (1 : Fin 2) * 256 + 1 * (j 1).val = (j 1).val
    omega

/-- An index of the result is in point `t`'s block iff each coordinate is in the block's range on its axis. -/
theorem mem_blk (t : Fin cfg0.N) (i : S131072x256.Idx) :
    i ∈ ((cfg0.win 2).blk t).view.set ↔ ∀ a : Fin 2, win0_2.index t a * S8192x256.size a ≤ (i a).val ∧ (i a).val < win0_2.index t a * S8192x256.size a + S8192x256.size a := by
  show i ∈ ((View.whole main_v0).slice (win0_2.rect t)).set ↔ _
  rw [View.set_slice_whole, Rect.mem_set_unit]
  exact Iff.rfl

/-- Every row of the result is in the block of the point its number divided by 8192 names. -/
theorem cover (i : S131072x256.Idx) : ∃ t : Fin cfg0.N, (cfg0.win 2).flush t = true ∧ i ∈ ((cfg0.win 2).blk t).view.set := by
  have hi0 : (i 0).val < 131072 := (i 0).isLt
  have hi1 : (i 1).val < 256 := (i 1).isLt
  have hN : cfg0.N = 16 := N_0
  obtain ⟨t, ht⟩ : ∃ t : Fin cfg0.N, t.val = (i 0).val / 8192 := ⟨⟨(i 0).val / 8192, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 256 ≤ (i 1).val ∧ (i 1).val < win0_2.index t (1 : Fin 2) * 256 + 256; omega

/-- After the run the result array is the dense layer of the two arguments. -/
theorem final (c : Dev nD) : (dats m 0 c).arrAt 2 cfg0.N
    = Cert.Dense.dense (m ((c : Thread nD τ).loc main_arg0)) (m ((c : Thread nD τ).loc main_arg1)) :=
  (dats m 0 c).arrAt_eq_of_cover 2 _ (fun t _ => flushed_eq m c t) cover

/-- The kernel's run: it terminates with the result array at the dense layer of its arguments, which it leaves unchanged. -/
theorem run : θ_run defs (onTc (τ := τ) (main (F := Ideal))) ⟨m, fun _ => 0, ρ⟩ fun r => ∀ c : Dev nD,
      r.2.mem ((c : Thread nD τ).loc main_v0) = Cert.Dense.dense (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Dense

end
-- ==== Proof.lean ====
/-
  A dense layer, `out[r, n] = Σ_{k < 256} x[r, k] · w[n, k]` over 131072 rows, computed two ways.

  The kernel lets the host change the weight's format and transpose it, then walks the input in 16 blocks of 8192 rows,
  multiplying each block by the prepared 256×256 matrix into a zero accumulator.  The reference contracts axis 1 of the
  input against axis 1 of the weight in one operation.  On the extended reals a change of format is the identity, so the
  prepared matrix is the weight transposed and both programs form, for every entry, the same sum of the same 256 products
  (`Cert.Dense.dense`): the kernel's side is `Cert.KernelIdeal.Dense.run`, the reference's `Cert.ReferenceIdeal.RefDense.ref_eq_dense`.
  No law of arithmetic is used, so the inputs' finiteness is never opened.  The third argument only feeds a `floor` whose
  result nothing reads.  The idealization rewrote no operation, so that it preserves the kernel holds trivially; the three
  frames are the generated ones (the reference's is its run with the result dropped).
-/
import proofs.«416868_j36283883717254_3_alg».proof.Defs
import proofs.«416868_j36283883717254_3_alg».proof.Proof.Gen.Kernel
import proofs.«416868_j36283883717254_3_alg».proof.Proof.Gen.Kernel.Skeleton
import proofs.«416868_j36283883717254_3_alg».proof.Proof.Gen.Kernel.Launch
import proofs.«416868_j36283883717254_3_alg».proof.Proof.Gen.Kernel.Points
import proofs.«416868_j36283883717254_3_alg».proof.Proof.Gen.Kernel.Frame
import proofs.«416868_j36283883717254_3_alg».proof.Proof.Gen.KernelIdeal
import proofs.«416868_j36283883717254_3_alg».proof.Proof.Gen.KernelIdeal.Skeleton
import proofs.«416868_j36283883717254_3_alg».proof.Proof.Gen.KernelIdeal.Launch
import proofs.«416868_j36283883717254_3_alg».proof.Proof.Gen.KernelIdeal.Points
import proofs.«416868_j36283883717254_3_alg».proof.Proof.Gen.KernelIdeal.Frame
import proofs.«416868_j36283883717254_3_alg».proof.Proof.Gen.ReferenceIdeal
import proofs.«416868_j36283883717254_3_alg».proof.Proof.Gen.Pre_finite_inputs
import proofs.«416868_j36283883717254_3_alg».proof.Proof.Gen.KernelIdeal.Value
import proofs.«416868_j36283883717254_3_alg».proof.Proof.Gen.ReferenceIdeal.Run
import proofs.«416868_j36283883717254_3_alg».proof.Proof.Gen.ReferenceIdeal.Read
import proofs.«416868_j36283883717254_3_alg».proof.Proof.DenseSpec
import proofs.«416868_j36283883717254_3_alg».proof.Proof.RefDense
import proofs.«416868_j36283883717254_3_alg».proof.Proof.KernelDense
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the result array at the dense layer of the
    input and the weight: the kernel by its 16 row blocks, the reference by its one contraction. -/
theorem algebraic : Cert.algebraic_KernelIdeal_ReferenceIdeal := by
  intro m ρ m' ρ' _ hagree
  refine ⟨fun c => Cert.Dense.dense (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefDense.ref_eq_dense, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
